-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S_ : Shape := ⟨0, ![]⟩
abbrev S4x64x4096 : Shape := ⟨3, ![4, 64, 4096]⟩
abbrev S1x256x64 : Shape := ⟨3, ![1, 256, 64]⟩
abbrev S1x64x4096 : Shape := ⟨3, ![1, 64, 4096]⟩
abbrev S1x4096x64 : Shape := ⟨3, ![1, 4096, 64]⟩
abbrev S256x64 : Shape := ⟨2, ![256, 64]⟩
abbrev S64x4096 : Shape := ⟨2, ![64, 4096]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S4x4096x64, .f32⟩
  | .hbm, ⟨5, _⟩ => ⟨S4x4096x64, .f32⟩
  | .hbm, ⟨6, _⟩ => ⟨S4x4096x64, .bf16⟩
  | .hbm, ⟨7, _⟩ => ⟨S4x64x4096, .f32⟩
  | .hbm, ⟨8, _⟩ => ⟨S4x64x4096, .bf16⟩
  | .hbm, ⟨9, _⟩ => ⟨S4x4096x64, .bf16⟩
  | .hbm, ⟨10, _⟩ => ⟨S4x4096x64, .f32⟩
  | .local _ .vmem, ⟨0, _⟩ => ⟨S1x256x64, .bf16⟩
  | .local _ .vmem, ⟨1, _⟩ => ⟨S1x256x64, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x256x64, .f32⟩
  | .local _ .vmem, ⟨7, _⟩ => ⟨S1x256x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x4096x64 : S_.BroadcastsInDim S4x4096x64 (![] : Fin 0 → Fin S4x4096x64.rank)
  bitsLt_bf16_f32 : FTy.bits .bf16 < FTy.bits .f32
  transposes_S4x4096x64_S4x64x4096_0_2_1 : S4x4096x64.Transposes [0, 2, 1] S4x64x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  shapeCasts_S256x64_S1x256x64 : S256x64.ShapeCasts S1x256x64
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .bf16 = 32 ∨ (Rect.block (s := S4x4096x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S4x64x4096.size a
  hwx0_1 : ∀ i : grid0.Coords, EltTy.bits .bf16 = 32 ∨ (Rect.block (s := S4x64x4096) S1x64x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .bf16 = 32 ∨ (Rect.block (s := S4x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S4x4096x64.size a
  hwx0_3 : ∀ i : grid0.Coords, EltTy.bits .f32 = 32 ∨ (Rect.block (s := S4x4096x64) S1x256x64.size (cc0_transform_3 i) (hinb0_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v2) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Softmax.lean ====
/-
  The mathematics of one row of softmax attention on the extended reals, with no program in sight.

  For scores `s j` and values `w j` over `j : Fin n`, two arrangements of the same weighted mean:
  * normalise LAST:  `(∑ j, exp (s j - M) * w j) / (∑ j, exp (s j - M))`        with `M = max_j s j`;
  * normalise FIRST: `∑ j, (exp (s j - M') / (0 + ∑ j', exp (s j' - M'))) * w j`  with `M' = max ⊥ M`.
  They differ by moving the factor `1 / ∑ exp` across a finite sum, which is distributivity: true on the reals and
  false at the infinities. When every score and every value is a real number, `M` is a real (the maximum of a nonempty
  finite family of reals), every `exp (s j - M)` is a positive real, so the divisor is a positive real, and the two
  arrangements agree (`weighted_eq`).

  The scores themselves come in two arrangements as well: `∑ a, (q a * c) * k a` and `(∑ a, q a * k a) * c`; for real
  data they are one real number (`score_scaled_eq`).
-/
import Idealize.ShloMosaic.PureOps.Ideal
import Idealize.ShloMosaic.PureOps.Ideal.Laws
import Idealize.ShloMosaic.Lib.ValueIdx

noncomputable section

namespace Cert.Attn

open Idealize.ShloMosaic

/-! ## Coercion of a finite real sum -/

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two arrangements -/

/-- The maximum of a finite family of extended reals, folded from `⊥`. -/
def rowMax {n : ℕ} (s : Fin n → EReal) : EReal := (Finset.univ : Finset (Fin n)).fold max (⊥ : EReal) s

/-- Normalise last: the weighted sum of the values divided by the sum of the weights. -/
def weightedLast {n : ℕ} (s w : Fin n → EReal) : EReal :=
  Ideal.div (∑ j : Fin n, Ideal.exp (s j - rowMax s) * w j) (∑ j : Fin n, Ideal.exp (s j - rowMax s))

/-- Normalise first: each weight divided by the sum of the weights (a sum started from `0`), then the weighted sum;
    the maximum is taken once more against `⊥`, which changes nothing. -/
def weightedFirst {n : ℕ} (s w : Fin n → EReal) : EReal :=
  ∑ j : Fin n, Ideal.div (Ideal.exp (s j - max ⊥ (rowMax s))) (0 + ∑ j' : Fin n, Ideal.exp (s j' - max ⊥ (rowMax s))) * w j

/-! ## On real data they agree -/

/-- The maximum of a NONEMPTY finite family of reals is a real. -/
theorem rowMax_coe {n : ℕ} (hn : 0 < n) (σ : Fin n → ℝ) : ∃ r : ℝ, rowMax (fun j => (σ j : EReal)) = (r : EReal) := by
  have hbot : rowMax (fun j => (σ j : EReal)) ≠ ⊥ := by
    have h1 : ((σ ⟨0, hn⟩ : ℝ) : EReal) ≤ rowMax (fun j => (σ j : EReal)) :=
      (Finset.le_fold_max _).mpr (Or.inr ⟨⟨0, hn⟩, Finset.mem_univ _, le_rfl⟩)
    exact ne_of_gt (lt_of_lt_of_le (EReal.bot_lt_coe _) h1)
  have htop : rowMax (fun j => (σ j : EReal)) ≠ ⊤ := by
    have h2 : rowMax (fun j => (σ j : EReal)) < ⊤ :=
      (Finset.fold_max_lt _).mpr ⟨bot_lt_top, fun x _ => EReal.coe_lt_top _⟩
    exact ne_of_lt h2
  exact ⟨(rowMax (fun j => (σ j : EReal))).toReal, (EReal.coe_toReal htop hbot).symm⟩

/-- For real scores and real values the two arrangements are one extended real. -/
theorem weighted_eq {n : ℕ} (hn : 0 < n) (σ ω : Fin n → ℝ) :
    weightedLast (fun j => (σ j : EReal)) (fun j => (ω j : EReal))
      = weightedFirst (fun j => (σ j : EReal)) (fun j => (ω j : EReal)) := by
  obtain ⟨r, hr⟩ := rowMax_coe hn σ
  unfold weightedLast weightedFirst
  rw [hr, max_eq_right (bot_le : (⊥ : EReal) ≤ (r : EReal))]
  -- every weight is a positive real
  have hexp : ∀ j : Fin n, Ideal.exp ((σ j : EReal) - (r : EReal)) = ((Real.exp (σ j - r) : ℝ) : EReal) := fun j => by
    rw [← EReal.coe_sub, Ideal.exp_coe]
  simp only [hexp]
  have hpos : 0 < ∑ j : Fin n, Real.exp (σ j - r) :=
    Finset.sum_pos (fun j _ => Real.exp_pos _) ⟨⟨0, hn⟩, Finset.mem_univ _⟩
  have hne : (∑ j : Fin n, Real.exp (σ j - r)) ≠ 0 := ne_of_gt hpos
  -- the divisor is that real
  have hden : (∑ j : Fin n, ((Real.exp (σ j - r) : ℝ) : EReal)) = ((∑ j : Fin n, Real.exp (σ j - r) : ℝ) : EReal) :=
    (coe_sum _ _).symm
  rw [hden, zero_add, Ideal.div_coe hne]
  have hnum : (∑ j : Fin n, ((Real.exp (σ j - r) : ℝ) : EReal) * (ω j : EReal))
      = ((∑ j : Fin n, Real.exp (σ j - r) * ω j : ℝ) : EReal) := by
    rw [coe_sum]
    exact Finset.sum_congr rfl fun j _ => (EReal.coe_mul _ _).symm
  rw [hnum, ← EReal.coe_mul]
  have hterm : ∀ j : Fin n, Ideal.div ((Real.exp (σ j - r) : ℝ) : EReal) ((∑ j : Fin n, Real.exp (σ j - r) : ℝ) : EReal) * (ω j : EReal)
      = ((Real.exp (σ j - r) * (1 / ∑ j : Fin n, Real.exp (σ j - r)) * ω j : ℝ) : EReal) := fun j => by
    rw [Ideal.div_coe hne, ← EReal.coe_mul, ← EReal.coe_mul]
  simp only [hterm]
  rw [← coe_sum, Finset.sum_mul]
  exact congrArg _ (Finset.sum_congr rfl fun j _ => by ring)

/-- The scale taken inside the dot product or outside it: for real data one real number. -/
theorem score_scaled_eq {d : ℕ} (c : ℝ) (q k : Fin d → ℝ) :
    (∑ a : Fin d, ((q a : EReal) * (c : EReal)) * (k a : EReal)) = ((∑ a : Fin d, q a * c * k a : ℝ) : EReal)
    ∧ (∑ a : Fin d, (q a : EReal) * (k a : EReal)) * (c : EReal) = ((∑ a : Fin d, q a * c * k a : ℝ) : EReal) := by
  constructor
  · rw [coe_sum]
    exact Finset.sum_congr rfl fun a _ => by rw [EReal.coe_mul, EReal.coe_mul]
  · have h : (∑ a : Fin d, (q a : EReal) * (k a : EReal)) = ((∑ a : Fin d, q a * k a : ℝ) : EReal) := by
      rw [coe_sum]
      exact Finset.sum_congr rfl fun a _ => (EReal.coe_mul _ _).symm
    rw [h, ← EReal.coe_mul, Finset.sum_mul]
    exact congrArg _ (Finset.sum_congr rfl fun a _ => by ring)

/-! ## The whole array -/

open Idealize.ShloMosaic.ValueIdx in
/-- Attention over `[4, 4096, 64]` arrays, scale inside the dot product and normalisation last: at `(b, p, e)` the
    scores of query row `p` of batch `b` against every key row `j`, and the values' column `e`. -/
def outLast (c : EReal) (q k v : (⟨3, ![4, 4096, 64]⟩ : Shape).Idx → EReal) : (⟨3, ![4, 4096, 64]⟩ : Shape).Idx → EReal := fun i =>
  weightedLast (fun j : Fin 4096 => ∑ a : Fin 64, (q (ix3 (i 0 : Fin 4) (i 1 : Fin 4096) a) * c) * k (ix3 (i 0 : Fin 4) j a))
    (fun j : Fin 4096 => v (ix3 (i 0 : Fin 4) j (i 2 : Fin 64)))

open Idealize.ShloMosaic.ValueIdx in
/-- The same with the scale outside the dot product and normalisation first. -/
def outFirst (c : EReal) (q k v : (⟨3, ![4, 4096, 64]⟩ : Shape).Idx → EReal) : (⟨3, ![4, 4096, 64]⟩ : Shape).Idx → EReal := fun i =>
  weightedFirst (fun j : Fin 4096 => (∑ a : Fin 64, q (ix3 (i 0 : Fin 4) (i 1 : Fin 4096) a) * k (ix3 (i 0 : Fin 4) j a)) * c)
    (fun j : Fin 4096 => v (ix3 (i 0 : Fin 4) j (i 2 : Fin 64)))

open Idealize.ShloMosaic.ValueIdx in
/-- When the scale and every entry of the three arrays are real numbers, the two are one array. -/
theorem out_eq (c : ℝ) (q k v : (⟨3, ![4, 4096, 64]⟩ : Shape).Idx → EReal)
    (hq : ∀ i, ∃ r : ℝ, q i = (r : EReal)) (hk : ∀ i, ∃ r : ℝ, k i = (r : EReal)) (hv : ∀ i, ∃ r : ℝ, v i = (r : EReal)) :
    outLast (c : EReal) q k v = outFirst (c : EReal) q k v := by
  choose q' hq' using hq
  choose k' hk' using hk
  choose v' hv' using hv
  funext i
  unfold outLast outFirst
  have hs1 : (fun j : Fin 4096 => ∑ a : Fin 64, (q (ix3 (i 0 : Fin 4) (i 1 : Fin 4096) a) * (c : EReal)) * k (ix3 (i 0 : Fin 4) j a))
      = fun j : Fin 4096 => ((∑ a : Fin 64, q' (ix3 (i 0 : Fin 4) (i 1 : Fin 4096) a) * c * k' (ix3 (i 0 : Fin 4) j a) : ℝ) : EReal) := by
    funext j
    simp only [hq', hk']
    exact (score_scaled_eq c (fun a => q' (ix3 (i 0 : Fin 4) (i 1 : Fin 4096) a)) (fun a => k' (ix3 (i 0 : Fin 4) j a))).1
  have hs2 : (fun j : Fin 4096 => (∑ a : Fin 64, q (ix3 (i 0 : Fin 4) (i 1 : Fin 4096) a) * k (ix3 (i 0 : Fin 4) j a)) * (c : EReal))
      = fun j : Fin 4096 => ((∑ a : Fin 64, q' (ix3 (i 0 : Fin 4) (i 1 : Fin 4096) a) * c * k' (ix3 (i 0 : Fin 4) j a) : ℝ) : EReal) := by
    funext j
    simp only [hq', hk']
    exact (score_scaled_eq c (fun a => q' (ix3 (i 0 : Fin 4) (i 1 : Fin 4096) a)) (fun a => k' (ix3 (i 0 : Fin 4) j a))).2
  have hw : (fun j : Fin 4096 => v (ix3 (i 0 : Fin 4) j (i 2 : Fin 64)))
      = fun j : Fin 4096 => ((v' (ix3 (i 0 : Fin 4) j (i 2 : Fin 64)) : ℝ) : EReal) := funext fun j => hv' _
  rw [hs1, hs2, hw]
  exact weighted_eq (by norm_num) _ _

/-! ## The literals -/

/-- The pattern `0xFF800000` is f32's `-∞`: the bottom of the extended reals. -/
theorem ofBits_neg_inf : Ideal.ofBits .f32 0xFF800000#32 = (⊥ : EReal) := by
  simp [Ideal.ofBits, Ideal.ieee]

/-- The pattern `0x3E000000` (the scale `1/8`) denotes a real number. -/
theorem ofBits_scale_real : ∃ c : ℝ, Ideal.ofBits .f32 0x3E000000#32 = (c : EReal) := by
  generalize h : Ideal.ofBits .f32 0x3E000000#32 = x
  induction x using EReal.rec with
  | bot =>
    exfalso
    simp [Ideal.ofBits, Ideal.ieee] at h
    rw [← EReal.coe_mul] at h
    exact EReal.coe_ne_bot _ h
  | top =>
    exfalso
    simp [Ideal.ofBits, Ideal.ieee] at h
    rw [← EReal.coe_mul] at h
    exact EReal.coe_ne_top _ h
  | coe r => exact ⟨r, rfl⟩

/-- The two arrangements of the whole array at the literal scale both programs use. -/
theorem out_eq_literal (q k v : (⟨3, ![4, 4096, 64]⟩ : Shape).Idx → EReal)
    (hq : ∀ i, ∃ r : ℝ, q i = (r : EReal)) (hk : ∀ i, ∃ r : ℝ, k i = (r : EReal)) (hv : ∀ i, ∃ r : ℝ, v i = (r : EReal)) :
    outLast (Ideal.ofBits .f32 0x3E000000#32) q k v = outFirst (Ideal.ofBits .f32 0x3E000000#32) q k v := by
  obtain ⟨c, hc⟩ := ofBits_scale_real
  rw [hc]
  exact out_eq c q k v hq hk hv

end Cert.Attn

end
-- ==== Proof.RefValue.lean ====
/-
  The reference's result, read index by index at the ideal values: it is `Attn.outFirst` of the three arguments, with the
  scale the literal `0x3E000000`.

  At `(b, p, e)` the reference contracts, over the key rows `j`, the normalised weights of query row `p` with the values'
  column `e`. A weight is `exp (s j - M)` over the sum of all of them started from `0`; `s j` is the dot product of query
  row `p` and key row `j`, scaled afterwards; `M` is the maximum of the `s j` folded from `-∞` and taken against `-∞` once
  more. Each stage below is one operation of the reference read at explicit coordinates.
-/
import proofs.«427182_j6571299963365_3_alg».proof.Proof.Gen.ReferenceIdeal.Read
import proofs.«427182_j6571299963365_3_alg».proof.Proof.Softmax
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-- The scale, as the reference's literal. -/
abbrev scale : EReal := Ideal.ofBits .f32 0x3E000000#32

/-- The scaled score of query row `p` against key row `j` in batch `b`. -/
def score (q k : S4x4096x64.Idx → EReal) (b : Fin 4) (p j : Fin 4096) : EReal :=
  (∑ a : Fin 64, q (ix3 b p a) * k (ix3 b j a)) * scale

/-- The scaled scores: the dot product over the feature axis, then the scale. -/
theorem scores_at (q k : S4x4096x64.Idx → EReal) (b : Fin 4) (p j : Fin 4096) :
    val_main_v2 (F := Ideal) q k (ix3 b p j) = score q k b p j := by
  rw [val_main_v2_apply, val_main_v0_apply, val_main_v1_apply, val_main_cst_apply]
  have el : ∀ a : Fin 64, lidx_main_v0 (ix3 b p j) a = ix3 b p a := fun a =>
    funext fun x => by match x with | ⟨0, _⟩ => rfl | ⟨1, _⟩ => rfl | ⟨2, _⟩ => rfl
  have er : ∀ a : Fin 64, ridx_main_v0 (ix3 b p j) a = ix3 b j a := fun a =>
    funext fun x => by match x with | ⟨0, _⟩ => rfl | ⟨1, _⟩ => rfl | ⟨2, _⟩ => rfl
  simp only [el, er]
  rfl

/-- The row maximum the reference subtracts: the fold of `max` from `-∞` over the key rows, against `-∞` once more. -/
theorem rowmax_at (q k : S4x4096x64.Idx → EReal) (b : Fin 4) (p : Fin 4096) :
    val_main_v5 (F := Ideal) q k (ix2 b p) = max ⊥ (rowMax fun j => score q k b p j) := by
  rw [val_main_v5_apply, val_main_v4_apply, val_main_cst_1_apply]
  show max (Ideal.ofBits .f32 0xFF800000#32) (val_main_v3 (F := Ideal) q k (ix2 b p)) = _
  rw [ofBits_neg_inf]
  refine congrArg (max ⊥) ?_
  unfold val_main_v3
  rw [Host.reduce_eq_fold_single FloatOps.maximumf _ _ reducesTo_S4x4096x4096_S4x4096_d2 (by decide) h_S_]
  unfold rowMax
  show (Finset.univ : Finset (Fin 4096)).fold max (Ideal.ofBits .f32 0xFF800000#32) _ = _
  rw [ofBits_neg_inf]
  refine congrArg (fun f : Fin 4096 → EReal => Finset.fold max (⊥ : EReal) f Finset.univ) (funext fun j => ?_)
  have e : ∀ h : S4x4096x4096.Reduces [2] S4x4096, h.lift (ix2 b p) j = ix3 b p j := fun h =>
    funext fun x => Fin.ext (by match x with | ⟨0, _⟩ => rfl | ⟨1, _⟩ => rfl | ⟨2, _⟩ => rfl)
  show val_main_v2 (F := Ideal) q k (Shape.Reduces.lift _ (ix2 b p) j) = _
  rw [e]
  exact scores_at q k b p j

/-- The unnormalised weight. -/
theorem weight_at (q k : S4x4096x64.Idx → EReal) (b : Fin 4) (p j : Fin 4096) :
    val_main_v9 (F := Ideal) q k (ix3 b p j)
      = Ideal.exp (score q k b p j - max ⊥ (rowMax fun j' => score q k b p j')) := by
  rw [val_main_v9_apply, val_main_v8_apply, val_main_v7_apply, val_main_v6_apply, scores_at]
  have e : idx_main_v6 (idx_main_v7 (ix3 b p j)) = ix2 b p :=
    funext fun x => by match x with | ⟨0, _⟩ => rfl | ⟨1, _⟩ => rfl
  rw [e, rowmax_at]
  rfl

/-- The divisor: the sum of the weights over the key rows, started from `0`. -/
theorem divisor_at (q k : S4x4096x64.Idx → EReal) (b : Fin 4) (p j : Fin 4096) :
    val_main_v12 (F := Ideal) q k (ix3 b p j)
      = 0 + ∑ j' : Fin 4096, Ideal.exp (score q k b p j' - max ⊥ (rowMax fun j'' => score q k b p j'')) := by
  rw [val_main_v12_apply, val_main_v11_apply, val_main_v10_apply, val_main_cst_2_apply]
  show Ideal.ofBits .f32 0x00000000#32 + _ = _
  rw [Ideal.ofBits_zero_f32]
  refine congrArg (0 + ·) (Finset.sum_congr rfl fun j' _ => ?_)
  have e : idx_main_v10 (idx_main_v11 (idx_main_v12 (ix3 b p j))) j' = ix3 b p j' :=
    funext fun x => by match x with | ⟨0, _⟩ => rfl | ⟨1, _⟩ => rfl | ⟨2, _⟩ => rfl
  rw [e, weight_at]

/-- THE REFERENCE'S RESULT is `Attn.outFirst` of its arguments at the literal scale. -/
theorem result_eq (q k v : S4x4096x64.Idx → EReal) :
    val_main_v14 (F := Ideal) q k v = outFirst scale q k v := by
  funext i
  obtain ⟨b, p, e, rfl⟩ : ∃ (b : Fin 4) (p : Fin 4096) (e : Fin 64), i = ix3 b p e := ⟨i 0, i 1, i 2, eq_ix3 i⟩
  rw [val_main_v14_apply]
  unfold outFirst weightedFirst
  refine Finset.sum_congr rfl fun j _ => ?_
  have el : lidx_main_v14 (ix3 b p e) j = ix3 b p j :=
    funext fun x => by match x with | ⟨0, _⟩ => rfl | ⟨1, _⟩ => rfl | ⟨2, _⟩ => rfl
  have er : ridx_main_v14 (ix3 b p e) j = ix3 b j e :=
    funext fun x => by match x with | ⟨0, _⟩ => rfl | ⟨1, _⟩ => rfl | ⟨2, _⟩ => rfl
  rw [el, er, val_main_v13_apply, weight_at, divisor_at]
  rfl

end Cert.ReferenceIdeal.RefValue

end
-- ==== Proof.KernelBlock.lean ====
/-
  What the kernel's body computes from one grid point's three blocks, read index by index at the ideal values.

  The body holds a block `x0` of 256 query rows (already scaled), the whole key matrix of the batch transposed, `x1`
  (64 × 4096), and the whole value matrix `x2` (4096 × 64). It forms the 256 × 4096 scores `x0 · x1`, subtracts each
  row's maximum, exponentiates, sums each row, multiplies the weights into `x2` and divides each row by its sum. At
  `(u, p, e)` of the stored block that is `Attn.weightedLast` of row `p`'s scores and column `e` of the values: the
  two matrix products are plain sums over their contracted axis, the row maximum the fold of `max` from `-∞`, the row
  sum a plain sum, and every change of layout reads one element of its operand.
-/
import proofs.«427182_j6571299963365_3_alg».proof.Proof.Gen.KernelIdeal.Skeleton
import proofs.«427182_j6571299963365_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Attn

/-! ## The two matrix products as sums over the contracted axis -/

theorem qk_lhs_0 (i : S256x4096.Idx) (r : dot_S256x64_S64x4096_S256x4096_1_0_0_1_n_n.contr.Idx) :
    (dot_S256x64_S64x4096_S256x4096_1_0_0_1_n_n.lhsIdx i r 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem qk_lhs_1 (i : S256x4096.Idx) (r : dot_S256x64_S64x4096_S256x4096_1_0_0_1_n_n.contr.Idx) :
    (dot_S256x64_S64x4096_S256x4096_1_0_0_1_n_n.lhsIdx i r 1).val = (r ⟨0, by decide⟩).val :=
  dot_S256x64_S64x4096_S256x4096_1_0_0_1_n_n.lhsIdx_val_of_single rfl i r
theorem qk_rhs_0 (i : S256x4096.Idx) (r : dot_S256x64_S64x4096_S256x4096_1_0_0_1_n_n.contr.Idx) :
    (dot_S256x64_S64x4096_S256x4096_1_0_0_1_n_n.rhsIdx i r 0).val = (r ⟨0, by decide⟩).val :=
  dot_S256x64_S64x4096_S256x4096_1_0_0_1_n_n.rhsIdx_val_of_single rfl i r
theorem qk_rhs_1 (i : S256x4096.Idx) (r : dot_S256x64_S64x4096_S256x4096_1_0_0_1_n_n.contr.Idx) :
    (dot_S256x64_S64x4096_S256x4096_1_0_0_1_n_n.rhsIdx i r 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- Queries times transposed keys, into a zero accumulator: at `(p, j)` the sum over the 64 features. -/
theorem qk_apply (X : FVec Ideal S256x64 .bf16) (Y : FVec Ideal S64x4096 .bf16) (p : Fin 256) (j : Fin 4096) :
    matmul dot_S256x64_S64x4096_S256x4096_1_0_0_1_n_n none X Y (constant (F := Ideal) S256x4096 .f32 0x00000000#32) (ix2 p j)
      = ∑ a : Fin 64, X (ix2 p a) * Y (ix2 a j) := by
  simp only [matmul]
  rw [Ideal.matmul_constant_zero_apply, ← Equiv.sum_comp (ValueIdx.contrEquiv1 dot_S256x64_S64x4096_S256x4096_1_0_0_1_n_n 64 rfl rfl).symm]
  refine Finset.sum_congr rfl fun a _ => ?_
  have hk := ValueIdx.contrEquiv1_symm_val dot_S256x64_S64x4096_S256x4096_1_0_0_1_n_n 64 rfl rfl a
  have el : dot_S256x64_S64x4096_S256x4096_1_0_0_1_n_n.lhsIdx (ix2 p j) ((ValueIdx.contrEquiv1 dot_S256x64_S64x4096_S256x4096_1_0_0_1_n_n 64 rfl rfl).symm a) = ix2 p a := funext fun x => Fin.ext (by
    match x with
    | ⟨0, _⟩ => exact qk_lhs_0 _ _
    | ⟨1, _⟩ => exact (qk_lhs_1 _ _).trans hk)
  have er : dot_S256x64_S64x4096_S256x4096_1_0_0_1_n_n.rhsIdx (ix2 p j) ((ValueIdx.contrEquiv1 dot_S256x64_S64x4096_S256x4096_1_0_0_1_n_n 64 rfl rfl).symm a) = ix2 a j := funext fun x => Fin.ext (by
    match x with
    | ⟨0, _⟩ => exact (qk_rhs_0 _ _).trans hk
    | ⟨1, _⟩ => exact qk_rhs_1 _ _)
  rw [el, er]

theorem pv_lhs_0 (i : S256x64.Idx) (r : dot_S256x4096_S4096x64_S256x64_1_0_0_1_n_n.contr.Idx) :
    (dot_S256x4096_S4096x64_S256x64_1_0_0_1_n_n.lhsIdx i r 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem pv_lhs_1 (i : S256x64.Idx) (r : dot_S256x4096_S4096x64_S256x64_1_0_0_1_n_n.contr.Idx) :
    (dot_S256x4096_S4096x64_S256x64_1_0_0_1_n_n.lhsIdx i r 1).val = (r ⟨0, by decide⟩).val :=
  dot_S256x4096_S4096x64_S256x64_1_0_0_1_n_n.lhsIdx_val_of_single rfl i r
theorem pv_rhs_0 (i : S256x64.Idx) (r : dot_S256x4096_S4096x64_S256x64_1_0_0_1_n_n.contr.Idx) :
    (dot_S256x4096_S4096x64_S256x64_1_0_0_1_n_n.rhsIdx i r 0).val = (r ⟨0, by decide⟩).val :=
  dot_S256x4096_S4096x64_S256x64_1_0_0_1_n_n.rhsIdx_val_of_single rfl i r
theorem pv_rhs_1 (i : S256x64.Idx) (r : dot_S256x4096_S4096x64_S256x64_1_0_0_1_n_n.contr.Idx) :
    (dot_S256x4096_S4096x64_S256x64_1_0_0_1_n_n.rhsIdx i r 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- Weights times values, into a zero accumulator: at `(p, e)` the sum over the 4096 key rows. -/
theorem pv_apply (X : FVec Ideal S256x4096 .bf16) (Y : FVec Ideal S4096x64 .bf16) (p : Fin 256) (e : Fin 64) :
    matmul dot_S256x4096_S4096x64_S256x64_1_0_0_1_n_n none X Y (constant (F := Ideal) S256x64 .f32 0x00000000#32) (ix2 p e)
      = ∑ j : Fin 4096, X (ix2 p j) * Y (ix2 j e) := by
  simp only [matmul]
  rw [Ideal.matmul_constant_zero_apply, ← Equiv.sum_comp (ValueIdx.contrEquiv1 dot_S256x4096_S4096x64_S256x64_1_0_0_1_n_n 4096 rfl rfl).symm]
  refine Finset.sum_congr rfl fun a _ => ?_
  have hk := ValueIdx.contrEquiv1_symm_val dot_S256x4096_S4096x64_S256x64_1_0_0_1_n_n 4096 rfl rfl a
  have el : dot_S256x4096_S4096x64_S256x64_1_0_0_1_n_n.lhsIdx (ix2 p e) ((ValueIdx.contrEquiv1 dot_S256x4096_S4096x64_S256x64_1_0_0_1_n_n 4096 rfl rfl).symm a) = ix2 p a := funext fun x => Fin.ext (by
    match x with
    | ⟨0, _⟩ => exact pv_lhs_0 _ _
    | ⟨1, _⟩ => exact (pv_lhs_1 _ _).trans hk)
  have er : dot_S256x4096_S4096x64_S256x64_1_0_0_1_n_n.rhsIdx (ix2 p e) ((ValueIdx.contrEquiv1 dot_S256x4096_S4096x64_S256x64_1_0_0_1_n_n 4096 rfl rfl).symm a) = ix2 a e := funext fun x => Fin.ext (by
    match x with
    | ⟨0, _⟩ => exact (pv_rhs_0 _ _).trans hk
    | ⟨1, _⟩ => exact pv_rhs_1 _ _)
  rw [el, er]

/-! ## The row reductions and the column broadcasts -/

/-- Index `p` of the reduced vector with `j` put back on the reduced axis is `(p, j)`. -/
theorem lift_row (h : S256x4096.Reduces [1] S256) (p : Fin 256) (j : Fin 4096) : h.lift (ix1 p) j = ix2 p j :=
  funext fun x => Fin.ext (by match x with | ⟨0, _⟩ => rfl | ⟨1, _⟩ => rfl)

/-- A row's maximum: the fold of `max` from `-∞` over the row. -/
theorem rowmax_apply (S : FVec Ideal S256x4096 .f32) (p : Fin 256) :
    multiReduction .maximumf [1] S256 S 0xFF800000#32 reduces_S256x4096_S256 (.inl rfl) rfl (ix1 p)
      = rowMax fun j : Fin 4096 => S (ix2 p j) := by
  refine (Ideal.multiReduction_maximumf_single S 0xFF800000#32 reduces_S256x4096_S256 (.inl rfl) rfl (ix1 p)).trans ?_
  unfold rowMax
  show (Finset.univ : Finset (Fin 4096)).fold max (Ideal.ofBits .f32 0xFF800000#32) _ = _
  rw [ofBits_neg_inf]
  refine congrArg (fun f : Fin 4096 → EReal => Finset.fold max (⊥ : EReal) f Finset.univ) (funext fun j => ?_)
  exact congrArg S (lift_row reduces_S256x4096_S256 p j)

/-- A row's sum. -/
theorem rowsum_apply (E : FVec Ideal S256x4096 .f32) (p : Fin 256) :
    multiReduction .add [1] S256 E 0x00000000#32 reduces_S256x4096_S256 (.inl rfl) rfl (ix1 p)
      = ∑ j : Fin 4096, E (ix2 p j) := by
  refine (Ideal.multiReduction_add_single E 0x00000000#32 reduces_S256x4096_S256 (.inl rfl) rfl (ix1 p)).trans ?_
  exact Finset.sum_congr rfl fun j _ => congrArg E (lift_row reduces_S256x4096_S256 p j)

/-- A vector of 256 row results made a column and spread over 4096 columns reads the row's result. -/
theorem column_wide (r : FVec Ideal S256 .f32) (p : Fin 256) (j : Fin 4096) :
    broadcastTo S256x4096 (shapeCast S256x1 r shapeCasts_S256_S256x1) broadcasts_S256x1_S256x4096 (ix2 p j) = r (ix1 p) := by
  refine (broadcastTo_apply _ broadcasts_S256x1_S256x4096 (ix2 p j) (ix2 p (0 : Fin 1)) (fun a => by
    match a with
    | ⟨0, _⟩ => show p.val = if (256 : Nat) = 1 then 0 else p.val; rw [if_neg (by decide)]
    | ⟨1, _⟩ => show 0 = if (1 : Nat) = 1 then 0 else j.val; rw [if_pos rfl])).trans ?_
  refine shapeCast_apply r shapeCasts_S256_S256x1 (ix2 p (0 : Fin 1)) (ix1 p) ?_
  rw [Shape.rowMajor_val_one, Shape.rowMajor_val_two]
  show p.val = p.val * 1 + 0
  omega

/-- The same spread over 64 columns. -/
theorem column_narrow (r : FVec Ideal S256 .f32) (p : Fin 256) (e : Fin 64) :
    broadcastTo S256x64 (shapeCast S256x1 r shapeCasts_S256_S256x1) broadcasts_S256x1_S256x64 (ix2 p e) = r (ix1 p) := by
  refine (broadcastTo_apply _ broadcasts_S256x1_S256x64 (ix2 p e) (ix2 p (0 : Fin 1)) (fun a => by
    match a with
    | ⟨0, _⟩ => show p.val = if (256 : Nat) = 1 then 0 else p.val; rw [if_neg (by decide)]
    | ⟨1, _⟩ => show 0 = if (1 : Nat) = 1 then 0 else e.val; rw [if_pos rfl])).trans ?_
  refine shapeCast_apply r shapeCasts_S256_S256x1 (ix2 p (0 : Fin 1)) (ix1 p) ?_
  rw [Shape.rowMajor_val_one, Shape.rowMajor_val_two]
  show p.val = p.val * 1 + 0
  omega

/-! ## The body's stages -/

/-- The scores: the query block times the transposed keys. -/
def scores (x0 : FVec Ideal S1x256x64 .bf16) (x1 : FVec Ideal S1x64x4096 .bf16) : FVec Ideal S256x4096 .f32 :=
  matmul dot_S256x64_S64x4096_S256x4096_1_0_0_1_n_n none (shapeCast S256x64 x0 shapeCasts_S1x256x64_S256x64)
    (shapeCast S64x4096 x1 shapeCasts_S1x64x4096_S64x4096) (constant (F := Ideal) S256x4096 .f32 0x00000000#32)

/-- The weights: the exponential of each score less its row's maximum. -/
def weights (x0 : FVec Ideal S1x256x64 .bf16) (x1 : FVec Ideal S1x64x4096 .bf16) : FVec Ideal S256x4096 .f32 :=
  exp (subf (scores x0 x1) (broadcastTo S256x4096 (shapeCast S256x1
    (multiReduction .maximumf [1] S256 (scores x0 x1) 0xFF800000#32 reduces_S256x4096_S256 (.inl rfl) rfl)
    shapeCasts_S256_S256x1) broadcasts_S256x1_S256x4096))

/-- The body's one payload is the weighted values over the row sums, re-laid as a `[1, 256, 64]` block. -/
theorem pay_eq (x0 : FVec Ideal S1x256x64 .bf16) (x1 : FVec Ideal S1x64x4096 .bf16) (x2 : FVec Ideal S1x4096x64 .bf16) :
    k0_pay1 (F := Ideal) x0 x1 x2
      = shapeCast S1x256x64 (divf
          (matmul dot_S256x4096_S4096x64_S256x64_1_0_0_1_n_n none (truncf .bf16 (weights x0 x1) bitsLt_bf16_f32)
            (shapeCast S4096x64 x2 shapeCasts_S1x4096x64_S4096x64) (constant (F := Ideal) S256x64 .f32 0x00000000#32))
          (broadcastTo S256x64 (shapeCast S256x1
            (multiReduction .add [1] S256 (weights x0 x1) 0x00000000#32 reduces_S256x4096_S256 (.inl rfl) rfl)
            shapeCasts_S256_S256x1) broadcasts_S256x1_S256x64))
        shapeCasts_S256x64_S1x256x64 := rfl

/-- The score of query row `p` against key row `j`. -/
theorem scores_apply (x0 : FVec Ideal S1x256x64 .bf16) (x1 : FVec Ideal S1x64x4096 .bf16) (p : Fin 256) (j : Fin 4096) :
    scores x0 x1 (ix2 p j) = ∑ a : Fin 64, x0 (ix3 (0 : Fin 1) p a) * x1 (ix3 (0 : Fin 1) a j) := by
  unfold scores
  refine (qk_apply _ _ p j).trans (Finset.sum_congr rfl fun a _ => ?_)
  rw [shapeCast_1ab_ab_apply x0 shapeCasts_S1x256x64_S256x64 p a, shapeCast_1ab_ab_apply x1 shapeCasts_S1x64x4096_S64x4096 a j]

/-- The weight of key row `j` for query row `p`. -/
theorem weights_apply (x0 : FVec Ideal S1x256x64 .bf16) (x1 : FVec Ideal S1x64x4096 .bf16) (p : Fin 256) (j : Fin 4096) :
    weights x0 x1 (ix2 p j)
      = Ideal.exp (scores x0 x1 (ix2 p j) - rowMax fun j' : Fin 4096 => scores x0 x1 (ix2 p j')) := by
  unfold weights
  show Ideal.exp (scores x0 x1 (ix2 p j) - _) = _
  refine congrArg (fun z : EReal => Ideal.exp (scores x0 x1 (ix2 p j) - z)) ?_
  exact (column_wide _ p j).trans (rowmax_apply (scores x0 x1) p)

/-- THE BLOCK THE BODY STORES, at `(u, p, e)`: the softmax-weighted mean of the values' column `e` under query row `p`'s scores. -/
theorem payload_at (x0 : FVec Ideal S1x256x64 .bf16) (x1 : FVec Ideal S1x64x4096 .bf16) (x2 : FVec Ideal S1x4096x64 .bf16)
    (u : Fin 1) (p : Fin 256) (e : Fin 64) :
    k0_pay1 (F := Ideal) x0 x1 x2 (ix3 u p e)
      = weightedLast (fun j : Fin 4096 => ∑ a : Fin 64, x0 (ix3 (0 : Fin 1) p a) * x1 (ix3 (0 : Fin 1) a j))
          (fun j : Fin 4096 => x2 (ix3 (0 : Fin 1) j e)) := by
  rw [pay_eq]
  refine (shapeCast_ab_1ab_apply _ shapeCasts_S256x64_S1x256x64 u p e).trans ?_
  have hs : (fun j : Fin 4096 => ∑ a : Fin 64, x0 (ix3 (0 : Fin 1) p a) * x1 (ix3 (0 : Fin 1) a j))
      = fun j : Fin 4096 => scores x0 x1 (ix2 p j) := funext fun j => (scores_apply x0 x1 p j).symm
  rw [hs]
  unfold weightedLast
  show Ideal.div _ _ = _
  refine congrArg₂ Ideal.div ?_ ?_
  · refine (pv_apply _ _ p e).trans (Finset.sum_congr rfl fun j _ => ?_)
    rw [shapeCast_1ab_ab_apply x2 shapeCasts_S1x4096x64_S4096x64 j e]
    show weights x0 x1 (ix2 p j) * _ = _
    rw [weights_apply]
  · refine (column_narrow _ p e).trans ?_
    refine (rowsum_apply (weights x0 x1) p).trans (Finset.sum_congr rfl fun j _ => ?_)
    rw [weights_apply]

end Cert.KernelIdeal.Block

end
-- ==== Proof.KernelValue.lean ====
/-
  The kernel's result array after the run, as one function of the three arguments: `Attn.outLast` at the literal scale.

  Before the grid starts the host has written three arrays: the queries times the scale, the keys with their last two
  axes swapped, and the values unchanged (each then narrowed to bf16, which is the identity on the extended reals).
  Grid point `(b, r)` reads rows `256 r … 256 r + 255` of batch `b` of the scaled queries and the whole key and value
  matrices of batch `b`, and writes rows `256 r … 256 r + 255` of batch `b` of the result. So the block it writes is
  the restriction of `Attn.outLast` to those rows; the 4 × 16 blocks tile the `[4, 4096, 64]` result, hence the array ends
  holding `Attn.outLast` everywhere.
-/
import proofs.«427182_j6571299963365_3_alg».proof.Proof.Gen.KernelIdeal.Value
import proofs.«427182_j6571299963365_3_alg».proof.Proof.KernelBlock
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Idealize.ShloMosaic.StableHlo Cert.Attn
open Idealize.ShloMosaic.Pipeline (Dat)

variable (m : (ℓ : Loc nD τ sig) → Buf (Elt Ideal) ℓ) (ρ : Dev nD → PrngReg)

/-- The scale, as the kernel's literal. -/
abbrev scale : EReal := Ideal.ofBits .f32 0x3E000000#32

/-! ## The arrays, typed as arrays of extended reals -/

/-- The three arguments as launched. -/
abbrev argQ (c : Dev nD) : S4x4096x64.Idx → EReal := m ((c : Thread nD τ).loc main_arg0)
abbrev argK (c : Dev nD) : S4x4096x64.Idx → EReal := m ((c : Thread nD τ).loc main_arg1)
abbrev argV (c : Dev nD) : S4x4096x64.Idx → EReal := m ((c : Thread nD τ).loc main_arg2)
/-- The three input arrays as the grid finds them. -/
abbrev inQ (c : Dev nD) : S4x4096x64.Idx → EReal := V m c main_v2
abbrev inK (c : Dev nD) : S4x64x4096.Idx → EReal := V m c main_v4
abbrev inV (c : Dev nD) : S4x4096x64.Idx → EReal := V m c main_v5

/-! ## What the host leaves in the three input arrays -/

/-- The first input array holds the queries times the scale. -/
theorem queries_at (c : Dev nD) (i : S4x4096x64.Idx) : inQ m c i = argQ m c i * scale := by
  have e : inQ m c
      = truncf (F := Ideal) .bf16 (mulf (argQ m c) (broadcastInDim S4x4096x64 ![] bcast_S_S4x4096x64 (constant (F := Ideal) S_ .f32 0x3E000000#32))) bitsLt_bf16_f32 := by
    show V m c main_v2 = _
    dsimp only [Gen.V, Gen.hostOps0]; after_results
  rw [e]; rfl

/-- The second holds the keys with rows and features swapped. -/
theorem keys_at (c : Dev nD) (b : Fin 4) (a : Fin 64) (j : Fin 4096) : inK m c (ix3 b a j) = argK m c (ix3 b j a) := by
  have e : inK m c
      = truncf (F := Ideal) .bf16 (transpose S4x64x4096 [0, 2, 1] (argK m c) transposes_S4x4096x64_S4x64x4096_0_2_1) bitsLt_bf16_f32 := by
    show V m c main_v4 = _
    dsimp only [Gen.V, Gen.hostOps0]; after_results
  rw [e]
  exact transpose_ix3_021_apply (argK m c) transposes_S4x4096x64_S4x64x4096_0_2_1 b a j

/-- The third holds the values. -/
theorem values_at (c : Dev nD) (i : S4x4096x64.Idx) : inV m c i = argV m c i := by
  have e : inV m c = truncf (F := Ideal) .bf16 (argV m c) bitsLt_bf16_f32 := by
    show V m c main_v5 = _
    dsimp only [Gen.V, Gen.hostOps0]; after_results
  rw [e]; rfl

/-! ## One grid point's block -/

/-- The result as one function of the arguments as launched. -/
abbrev result (c : Dev nD) : S4x4096x64.Idx → EReal := outLast scale (argQ m c) (argK m c) (argV m c)

/-- If the three blocks are batch `B`'s query rows `256 R + p` (scaled by `s`), its transposed keys and its values, read
    through any index maps `I0`, `I1`, `I2` with those coordinates, then the body's payload at `(u, p, e)` is
    `Attn.outLast` at any index `i` with coordinates `(B, 256 R + p, e)`. -/
theorem block_value (x0 : FVec Ideal S1x256x64 .bf16) (x1 : FVec Ideal S1x64x4096 .bf16) (x2 : FVec Ideal S1x4096x64 .bf16)
    (s : EReal) (q k v : S4x4096x64.Idx → EReal) (B R : ℕ)
    (I0 : Fin 256 → Fin 64 → S4x4096x64.Idx) (I1 : Fin 64 → Fin 4096 → S4x4096x64.Idx) (I2 : Fin 4096 → Fin 64 → S4x4096x64.Idx)
    (hI0 : ∀ p a, (I0 p a 0).val = B ∧ (I0 p a 1).val = R * 256 + p.val ∧ (I0 p a 2).val = a.val)
    (hI1 : ∀ a j, (I1 a j 0).val = B ∧ (I1 a j 1).val = j.val ∧ (I1 a j 2).val = a.val)
    (hI2 : ∀ j e, (I2 j e 0).val = B ∧ (I2 j e 1).val = j.val ∧ (I2 j e 2).val = e.val)
    (h0 : ∀ p a, x0 (ix3 (0 : Fin 1) p a) = q (I0 p a) * s)
    (h1 : ∀ a j, x1 (ix3 (0 : Fin 1) a j) = k (I1 a j))
    (h2 : ∀ j e, x2 (ix3 (0 : Fin 1) j e) = v (I2 j e))
    (u : Fin 1) (p : Fin 256) (e : Fin 64) (i : S4x4096x64.Idx)
    (hi : (i 0).val = B ∧ (i 1).val = R * 256 + p.val ∧ (i 2).val = e.val) :
    k0_pay1 (F := Ideal) x0 x1 x2 (ix3 u p e) = outLast s q k v i := by
  rw [payload_at]
  unfold outLast
  obtain ⟨hi0, hi1, hi2⟩ := hi
  have e0 : ∀ a : Fin 64, I0 p a = ix3 (i 0 : Fin 4) (i 1 : Fin 4096) a := fun a => by
    obtain ⟨g0, g1, g2⟩ := hI0 p a
    funext x; apply Fin.ext
    match x with
    | ⟨0, _⟩ => show (I0 p a 0).val = (i 0).val; omega
    | ⟨1, _⟩ => show (I0 p a 1).val = (i 1).val; omega
    | ⟨2, _⟩ => show (I0 p a 2).val = a.val; omega
  have e1 : ∀ (a : Fin 64) (j : Fin 4096), I1 a j = ix3 (i 0 : Fin 4) j a := fun a j => by
    obtain ⟨g0, g1, g2⟩ := hI1 a j
    funext x; apply Fin.ext
    match x with
    | ⟨0, _⟩ => show (I1 a j 0).val = (i 0).val; omega
    | ⟨1, _⟩ => show (I1 a j 1).val = j.val; omega
    | ⟨2, _⟩ => show (I1 a j 2).val = a.val; omega
  have e2 : ∀ j : Fin 4096, I2 j e = ix3 (i 0 : Fin 4) j (i 2 : Fin 64) := fun j => by
    obtain ⟨g0, g1, g2⟩ := hI2 j e
    funext x; apply Fin.ext
    match x with
    | ⟨0, _⟩ => show (I2 j e 0).val = (i 0).val; omega
    | ⟨1, _⟩ => show (I2 j e 1).val = j.val; omega
    | ⟨2, _⟩ => show (I2 j e 2).val = (i 2).val; omega
  refine congrArg₂ weightedLast (funext fun j => Finset.sum_congr rfl fun a _ => ?_) (funext fun j => ?_)
  · rw [h0, h1, e0, e1]; rfl
  · rw [h2, e2]; rfl

/-! ## The index maps over the grid -/

theorem hz : (![0, 0, 0] : Fin 3 → Nat) = fun _ => 0 := funext fun a => by fin_cases a <;> rfl

/-- Decided over the 64 grid points: the query window moves with the result window, the key and value windows follow
    its batch coordinate only, and the result's block indices stay in range. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) ≤ 15 ∧ win0_3.index t (2 : Fin 3) = 0 :=
  (by decide +kernel : ∀ t : Fin grid0.N, _)

/-- Every block of the result is some grid point's. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-! ## What a grid point writes back -/

/-- Grid point `t` writes back block `t` of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1x256x64) hz, View.ld_unit_zero (S := S1x64x4096) hz, View.ld_unit_zero (S := S1x4096x64) hz]
  obtain ⟨f00, f01, f02, f10, f11, f12, f20, f21, f22, f30, f31, f32⟩ := idx_facts t
  funext y
  obtain ⟨u, p, e, rfl⟩ : ∃ (u : Fin 1) (p : Fin 256) (e : Fin 64), y = ix3 u p e := ⟨y 0, y 1, y 2, eq_ix3 y⟩
  show k0_pay1 (F := Ideal) (iblk m c 0 t) (iblk m c 1 t) (iblk m c 2 t) (ix3 u p e)
      = result m c (((cfg0.win 3).blk t).view.emb (ix3 u p e))
  refine block_value (iblk m c 0 t) (iblk m c 1 t) (iblk m c 2 t) scale
    (argQ m c) (argK m c) (argV m c)
    (win0_3.index t (0 : Fin 3)) (win0_3.index t (1 : Fin 3))
    (fun p a => ((cfg0.win 0).blk t).view.emb (ix3 (0 : Fin 1) p a))
    (fun a j => ix3 (⟨win0_3.index t (0 : Fin 3), by omega⟩ : Fin 4) j a)
    (fun j e => ((cfg0.win 2).blk t).view.emb (ix3 (0 : Fin 1) j e))
    (fun p a => ?_) (fun a j => ⟨rfl, rfl, rfl⟩) (fun j e => ?_) (fun p a => ?_) (fun a j => ?_) (fun j e => ?_)
    u p e _ ?_
  · refine ⟨?_, ?_, ?_⟩
    · show win0_0.index t (0 : Fin 3) * 1 + 1 * 0 = _; omega
    · show win0_0.index t (1 : Fin 3) * 256 + 1 * p.val = _; omega
    · show win0_0.index t (2 : Fin 3) * 64 + 1 * a.val = _; omega
  · refine ⟨?_, ?_, ?_⟩
    · show win0_2.index t (0 : Fin 3) * 1 + 1 * 0 = _; omega
    · show win0_2.index t (1 : Fin 3) * 4096 + 1 * j.val = _; omega
    · show win0_2.index t (2 : Fin 3) * 64 + 1 * e.val = _; omega
  · show inQ m c (((cfg0.win 0).blk t).view.emb (ix3 (0 : Fin 1) p a)) = _
    rw [queries_at]
  · show inK m c (((cfg0.win 1).blk t).view.emb (ix3 (0 : Fin 1) a j)) = _
    have ek : ((cfg0.win 1).blk t).view.emb (ix3 (0 : Fin 1) a j) = ix3 (⟨win0_3.index t (0 : Fin 3), by omega⟩ : Fin 4) a j := by
      funext x; apply Fin.ext
      match x with
      | ⟨0, _⟩ => show win0_1.index t (0 : Fin 3) * 1 + 1 * 0 = win0_3.index t (0 : Fin 3); omega
      | ⟨1, _⟩ => show win0_1.index t (1 : Fin 3) * 64 + 1 * a.val = a.val; omega
      | ⟨2, _⟩ => show win0_1.index t (2 : Fin 3) * 4096 + 1 * j.val = j.val; omega
    rw [ek, keys_at]
  · show inV m c (((cfg0.win 2).blk t).view.emb (ix3 (0 : Fin 1) j e)) = _
    rw [values_at]
  · have hu : u.val = 0 := by omega
    refine ⟨?_, ?_, ?_⟩
    · show win0_3.index t (0 : Fin 3) * 1 + 1 * u.val = _; omega
    · show win0_3.index t (1 : Fin 3) * 256 + 1 * p.val = _; omega
    · show win0_3.index t (2 : Fin 3) * 64 + 1 * e.val = _; omega

/-! ## The blocks tile the result -/

/-- An index of the result is in point `t`'s block iff each coordinate is in the block's range on its axis. -/
theorem mem_blk (t : Fin cfg0.N) (i : S4x4096x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_v6).slice (win0_3.rect t)).set ↔ _
  rw [View.set_slice_whole, Rect.mem_set_unit]
  exact Iff.rfl

/-- Every index of the result is in the block of the point `(i 0, i 1 / 256)`, which writes back. -/
theorem covered (i : S4x4096x64.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE RESULT ARRAY after the run is `result`. -/
theorem final (c : Dev nD) : (dats m 0 c).arrAt 3 cfg0.N = result m c :=
  (dats m 0 c).arrAt_eq_of_cover 3 (result m c) (fun t _ => flushed_eq m c t) covered

/-! ## The run, read -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Finite.lean ====
/-
  From the precondition to real numbers. `finite_inputs` says, of each of the three argument arrays, that every entry's
  absolute value is below `+∞` (three reductions by `and` over all axes, joined by `and`). On the extended reals
  `|x| < ⊤` excludes both infinities, so every entry of every argument is the coercion of a real number: what the
  distributive steps of the attention identity need.
-/
import proofs.«427182_j6571299963365_3_alg».proof.Pre_finite_inputs
import proofs.«427182_j6571299963365_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx

/-- The rank-0 shape has one index. -/
instance : Subsingleton Cert.Pre_finite_inputs.S_.Idx := ⟨fun a b => funext fun d => d.elim0⟩

/-- The pattern `0x7F800000` is f32's `+∞`: the top of the extended reals. -/
theorem ofBits_pos_inf : Ideal.ofBits .f32 0x7F800000#32 = (⊤ : EReal) := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => exfalso; simp [Ideal.cmp] at h
  | top => exfalso; simp [Ideal.cmp] at h
  | coe r => exact ⟨r, rfl⟩

/-- Under `finite_inputs` every entry of each argument array is a real number. -/
theorem entries_real (a0 a1 a2 : FVec Ideal Cert.Pre_finite_inputs.S4x4096x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 : IntOp.andi (IntOp.andi _ _) _ = 1#1 := congrFun h ValueIdx.ix0
  obtain ⟨h01, hc⟩ := IntOp.andi_eq_one.1 h0
  obtain ⟨ha, hb⟩ := IntOp.andi_eq_one.1 h01
  refine ⟨fun i => ?_, fun i => ?_, fun i => ?_⟩
  · exact real_of_abs_lt (a0 i) (Host.reduce_andi_all _ _ _ _ _ ha i)
  · exact real_of_abs_lt (a1 i) (Host.reduce_andi_all _ _ _ _ _ hb i)
  · exact real_of_abs_lt (a2 i) (Host.reduce_andi_all _ _ _ _ _ hc i)

end Cert.Finite

end
-- ==== Proof.lean ====
/-
  Scaled dot-product attention over `[4, 4096, 64]` queries, keys and values: a tiled kernel against the plain formula.

  The kernel scales the queries by 1/8 on the host, swaps the keys' last two axes, and for each block of 256 query rows
  forms the scores against all 4096 key rows, subtracts each row's maximum, exponentiates, multiplies the weights into
  the values and only then divides each row by the sum of its weights. The reference forms all scores, scales them,
  takes `softmax` along the key axis (the weights divided by their sum first) and multiplies into the values.

  On the extended reals a change of float format is the identity, both matrix products are plain sums, and both row
  maxima are folds of `max` from `-∞`; what separates the two programs is where the scale sits in the dot product and
  where the division by the sum of the weights sits in the weighted sum. Both are distributivity, which holds on the
  reals and fails at the infinities, so the precondition is used: every entry of the arguments is a real number, hence
  every score, every row maximum (of a nonempty row) and every weight is real, and the divisor is a positive real.

  `Softmax` holds that mathematics; `RefValue` reads the reference's result as the normalise-first arrangement;
  `KernelBlock` reads one grid point's stored block and `KernelValue` the whole result array as the normalise-last
  arrangement; `Finite` turns the precondition into real entries. The three frames are the generated ones (the
  reference's is its run with the result dropped), and no operation was rewritten by the idealization.
-/
import proofs.«427182_j6571299963365_3_alg».proof.Defs
import proofs.«427182_j6571299963365_3_alg».proof.Proof.Gen.Kernel
import proofs.«427182_j6571299963365_3_alg».proof.Proof.Gen.Kernel.Skeleton
import proofs.«427182_j6571299963365_3_alg».proof.Proof.Gen.Kernel.Launch
import proofs.«427182_j6571299963365_3_alg».proof.Proof.Gen.Kernel.Points
import proofs.«427182_j6571299963365_3_alg».proof.Proof.Gen.Kernel.Frame
import proofs.«427182_j6571299963365_3_alg».proof.Proof.Gen.KernelIdeal
import proofs.«427182_j6571299963365_3_alg».proof.Proof.Gen.KernelIdeal.Skeleton
import proofs.«427182_j6571299963365_3_alg».proof.Proof.Gen.KernelIdeal.Launch
import proofs.«427182_j6571299963365_3_alg».proof.Proof.Gen.KernelIdeal.Points
import proofs.«427182_j6571299963365_3_alg».proof.Proof.Gen.KernelIdeal.Frame
import proofs.«427182_j6571299963365_3_alg».proof.Proof.Gen.ReferenceIdeal
import proofs.«427182_j6571299963365_3_alg».proof.Proof.Gen.Pre_finite_inputs
import proofs.«427182_j6571299963365_3_alg».proof.Proof.Gen.KernelIdeal.Value
import proofs.«427182_j6571299963365_3_alg».proof.Proof.Gen.ReferenceIdeal.Run
import proofs.«427182_j6571299963365_3_alg».proof.Proof.Gen.ReferenceIdeal.Read
import proofs.«427182_j6571299963365_3_alg».proof.Proof.Softmax
import proofs.«427182_j6571299963365_3_alg».proof.Proof.RefValue
import proofs.«427182_j6571299963365_3_alg».proof.Proof.KernelBlock
import proofs.«427182_j6571299963365_3_alg».proof.Proof.KernelValue
import proofs.«427182_j6571299963365_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on real-valued arguments both programs end with the same array: the kernel's
    normalise-last arrangement and the reference's normalise-first arrangement of one weighted mean. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq,
    Cert.ReferenceIdeal.RefValue.result_eq]
  obtain ⟨hq, hk, hv⟩ := Cert.Finite.entries_real _ _ _ (hpre c)
  exact (Cert.Attn.out_eq_literal _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
